-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x128 : Shape := ⟨2, ![512, 128]⟩
abbrev S128x64 : Shape := ⟨2, ![128, 64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S100000x512 .f32) (main_arg1 : IVec S1600000 32) (main_arg2 : IVec S1600000 32) (main_arg3 : FVec F S1600000 .f32) (main_arg4 : FVec F S512x128 .f32) (main_arg5 : FVec F S128x64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S100000x512 : Shape := ⟨2, ![100000, 512]⟩
abbrev S1600000 : Shape := ⟨1, ![1600000]⟩
abbrev S512x128 : Shape := ⟨2, ![512, 128]⟩
abbrev S128x64 : Shape := ⟨2, ![128, 64]⟩
abbrev S100000x128 : Shape := ⟨2, ![100000, 128]⟩
abbrev S2000x512 : Shape := ⟨2, ![2000, 512]⟩
abbrev S2000x128 : Shape := ⟨2, ![2000, 128]⟩
abbrev S1600000x1 : Shape := ⟨2, ![1600000, 1]⟩
abbrev S_ : Shape := ⟨0, ![]⟩
abbrev S1600000x128 : Shape := ⟨2, ![1600000, 128]⟩
abbrev S100000x64 : Shape := ⟨2, ![100000, 64]⟩
abbrev S2000x64 : Shape := ⟨2, ![2000, 64]⟩
abbrev S1600000x64 : Shape := ⟨2, ![1600000, 64]⟩

abbrev nBuf : Space → Nat
  | .hbm => 43
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128x64, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x64, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x64, .f32⟩
  | .local _ .vmem, ⟨8, _⟩ => ⟨S2000x64, .f32⟩
  | .local _ .vmem, ⟨9, _⟩ => ⟨S2000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S2000x512_S512x128_S2000x128_1_0_0_1_n_n_wf : DotDims.WF S2000x512 S512x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x128 : Shape := ⟨2, ![512, 128]⟩
abbrev S128x64 : Shape := ⟨2, ![128, 64]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S100000x64 : Shape := ⟨2, ![100000, 64]⟩
abbrev S1600000x64 : Shape := ⟨2, ![1600000, 64]⟩

abbrev nBuf : Space → Nat
  | .hbm => 43
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128x64, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x64, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.MatProd.lean ====
/-
  The plain matrix product as ONE function of its two operands, index by index, over the extended reals:
  entry (r, c) of x · w is the sum over k of x(r, k) · w(k, c).

  Two programs' products are this function: the vector unit's product of the two operands narrowed to a
  shorter float format, into a zero accumulator (a change of float format is the identity on extended reals),
  and the host's product with the same dimension numbers.
-/
import proofs.«104030_j47880295416003_1_alg».proof.Proof.LibDot

noncomputable section

open scoped BigOperators

namespace Cert.MatProd

open Idealize.ShloMosaic Idealize.ShloMosaic.ValueIdx

/-- The product of an R×K array and a K×C array: entry (r, c) is ∑ₖ x(r, k) · w(k, c). -/
def matProd {R K C : Nat} (x : FVec Ideal ⟨2, ![R, K]⟩ .f32) (w : FVec Ideal ⟨2, ![K, C]⟩ .f32) :
    FVec Ideal ⟨2, ![R, C]⟩ .f32 :=
  fun i => ∑ k : Fin K, x (ix2 (n0 := R) (i 0) k) * w (ix2 (n1 := C) k (i 1))

/-- The product at an entry given by its two coordinates. -/
theorem matProd_at {R K C : Nat} (x : FVec Ideal ⟨2, ![R, K]⟩ .f32) (w : FVec Ideal ⟨2, ![K, C]⟩ .f32)
    (r : Fin R) (c : Fin C) : matProd x w (ix2 r c) = ∑ k : Fin K, x (ix2 r k) * w (ix2 k c) := rfl

/-- The host's product with "left columns against right rows, no batch axis" is the plain product. -/
theorem dotGeneral_eq {R K C : Nat} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule)
    (x : FVec Ideal ⟨2, ![R, K]⟩ .f32) (w : FVec Ideal ⟨2, ![K, C]⟩ .f32) :
    FloatOps.dotGeneral d prec sched x w = matProd x w := by
  funext i
  obtain ⟨r, c, rfl⟩ : ∃ (r : Fin R) (c : Fin C), i = ix2 r c := ⟨i 0, i 1, eq_ix2 i⟩
  exact Cert.LibDot.dotGeneral_at d hl hr hln hrn hlb hrb prec sched x w r c

/-- The same, for the host's product as a host program spells it (one device's data). -/
theorem hostDot_eq {R K C : Nat} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ .f32) (w : FVec Ideal ⟨2, ![K, C]⟩ .f32) :
    Host.dotGeneral d prec x w = matProd x w :=
  dotGeneral_eq d hl hr hln hrn hlb hrb prec .single x w

/-- The vector unit's product of the two operands narrowed to a shorter format, into the zero accumulator, is
    the plain product of the operands themselves: narrowing is the identity on extended reals. -/
theorem matmul_narrowed_eq {R K C : Nat} {ψ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (hψ : ψ.bits < FTy.bits .f32)
    (x : FVec Ideal ⟨2, ![R, K]⟩ .f32) (w : FVec Ideal ⟨2, ![K, C]⟩ .f32) :
    FloatOps.matmul d prec (truncf ψ x hψ) (truncf ψ w hψ) (constant ⟨2, ![R, C]⟩ .f32 0x00000000#32) = matProd x w := by
  funext i
  obtain ⟨r, c, rfl⟩ : ∃ (r : Fin R) (c : Fin C), i = ix2 r c := ⟨i 0, i 1, eq_ix2 i⟩
  exact Cert.LibDot.matmul_zero_at d hl hr hln hrn hlb hrb prec (truncf ψ x hψ) (truncf ψ w hψ) r c

end Cert.MatProd

end
-- ==== Proof.Layer1Product.lean ====
/-
  What pallas_call 0 leaves in its output array: the plain product of its two operand arrays.

  The grid has 50 points. At point t the body reads rows t·2000 … t·2000+1999 of the left operand (all 512 columns) and the
  whole right operand, and stores the product of the two blocks; entry (p, q) of that block is
  ∑ₖ x(t·2000+p, k) · w(k, q), which is entry (t·2000+p, q) of the product of the whole arrays. The write-back puts the
  block at rows t·2000 … of the output, and row r of the output lies in the block of point r / 2000, so the 50 blocks
  cover the 100000 rows.
-/
import proofs.«104030_j47880295416003_1_alg».proof.Proof.Gen.KernelIdeal.Frame
import proofs.«104030_j47880295416003_1_alg».proof.Proof.MatProd
import Idealize.ShloMosaic.Lib.Pipeline.Value
import Idealize.ShloMosaic.Lib.ValueIdx

set_option maxRecDepth 16384

noncomputable section

open scoped BigOperators

namespace Cert.KernelIdeal.Layer1

open Idealize.ShloMosaic Idealize.ShloMosaic.TcCoe Idealize.ShloMosaic.ValueIdx Idealize.SL.Sem
open Cert.KernelIdeal Cert.KernelIdeal.Gen Cert.MatProd
open Idealize.ShloMosaic.Pipeline (Dat)

-- the TensorCore's buffer contents when the region is entered
variable (V : (c : Dev nD) → (b : Ref sig .tc) → Buf (Elt Ideal) ((c : Thread nD τ).loc b))

/-- The left operand's array as the region finds it. -/
abbrev lhsArr (c : Dev nD) : FVec Ideal S100000x512 .f32 := V c main_arg0
/-- The right operand's array as the region finds it. -/
abbrev rhsArr (c : Dev nD) : FVec Ideal S512x128 .f32 := V c main_arg4

theorem zero_offsets : (![0, 0] : Fin 2 → Nat) = fun _ => 0 := funext fun a => by fin_cases a <;> rfl

/-- The body's stored value is the plain product of its two loaded blocks. -/
theorem body_product (x : Vec Ideal S2000x512 .f32) (w : Vec Ideal S512x128 .f32) : k0_pay1 x w = matProd x w := by
  unfold k0_pay1
  exact matmul_narrowed_eq dot_S2000x512_S512x128_S2000x128_1_0_0_1_n_n rfl rfl rfl rfl rfl rfl none _ x w

/-- The printed index maps over the grid: the left operand's and the output's blocks are row-block t, column-block 0;
    the right operand's block is always the whole array. -/
theorem block_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the operand arrays as the region finds them. -/
theorem written_back (c : Dev nD) (t : Fin cfg0.N) :
    (dat0 V c).flushed 2 t = ((cfg0.win 2).blk t).view.read (Elt Ideal) (matProd (lhsArr V c) (rhsArr V c)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x128) zero_offsets]
  rw [body_product]
  obtain ⟨e0, e1, e2, e3, e4, e5⟩ := block_maps t
  funext j
  show (∑ k : Fin 512, lhsArr V c (((cfg0.win 0).blk t).view.emb (ix2 (j 0) k)) * rhsArr V c (((cfg0.win 1).blk t).view.emb (ix2 k (j 1))))
    = ∑ k : Fin 512, lhsArr V c (ix2 ((((cfg0.win 2).blk t).view.emb j) 0) k) * rhsArr V c (ix2 k ((((cfg0.win 2).blk t).view.emb j) 1))
  refine Finset.sum_congr rfl fun k _ => ?_
  have hx : ((cfg0.win 0).blk t).view.emb (ix2 (j 0) k) = ix2 ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have hw : ((cfg0.win 1).blk t).view.emb (ix2 k (j 1)) = ix2 k ((((cfg0.win 2).blk t).view.emb j) 1) := by
    funext a; apply Fin.ext
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  rw [hx, hw]
  rfl

/-- An index of the output array is in point t's block iff each coordinate is in the block's range on its axis. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every index of the output array is in the block of the point its row falls in. -/
theorem covered (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : (i 0).val / 2000 < cfg0.N := lt_of_lt_of_eq (by omega) N_0.symm
  refine ⟨⟨(i 0).val / 2000, hN⟩, flush0_2 _, ?_⟩
  obtain ⟨e0, e1, e2, e3, e4, e5⟩ := block_maps ⟨(i 0).val / 2000, hN⟩
  rw [mem_block]
  intro a
  match a with
  | ⟨0, _⟩ => show win0_2.index ⟨(i 0).val / 2000, hN⟩ (0 : Fin 2) * 2000 ≤ (i 0).val ∧ (i 0).val < win0_2.index ⟨(i 0).val / 2000, hN⟩ (0 : Fin 2) * 2000 + 2000; simp only [e4]; omega
  | ⟨1, _⟩ => show win0_2.index ⟨(i 0).val / 2000, hN⟩ (1 : Fin 2) * 128 ≤ (i 1).val ∧ (i 1).val < win0_2.index ⟨(i 0).val / 2000, hN⟩ (1 : Fin 2) * 128 + 128; simp only [e5]; omega

/-- The output array after the region: the plain product of the operand arrays as the region found them. -/
theorem output_array (c : Dev nD) : (dat0 V c).arrAt 2 cfg0.N = matProd (lhsArr V c) (rhsArr V c) :=
  (dat0 V c).arrAt_eq_of_cover 2 _ (fun t _ => written_back V c t) covered

end Cert.KernelIdeal.Layer1

end
-- ==== Proof.Layer2Product.lean ====
/-
  What pallas_call 1 leaves in its output array: the plain product of its two operand arrays.

  The grid has 50 points. At point t the body reads rows t·2000 … t·2000+1999 of the left operand (all 128 columns) and the
  whole right operand, and stores the product of the two blocks; entry (p, q) of that block is
  ∑ₖ x(t·2000+p, k) · w(k, q), which is entry (t·2000+p, q) of the product of the whole arrays. The write-back puts the
  block at rows t·2000 … of the output, and row r of the output lies in the block of point r / 2000, so the 50 blocks
  cover the 100000 rows.
-/
import proofs.«104030_j47880295416003_1_alg».proof.Proof.Gen.KernelIdeal.Frame
import proofs.«104030_j47880295416003_1_alg».proof.Proof.MatProd
import Idealize.ShloMosaic.Lib.Pipeline.Value
import Idealize.ShloMosaic.Lib.ValueIdx

set_option maxRecDepth 16384

noncomputable section

open scoped BigOperators

namespace Cert.KernelIdeal.Layer2

open Idealize.ShloMosaic Idealize.ShloMosaic.TcCoe Idealize.ShloMosaic.ValueIdx Idealize.SL.Sem
open Cert.KernelIdeal Cert.KernelIdeal.Gen Cert.MatProd
open Idealize.ShloMosaic.Pipeline (Dat)

-- the TensorCore's buffer contents when the region is entered
variable (V : (c : Dev nD) → (b : Ref sig .tc) → Buf (Elt Ideal) ((c : Thread nD τ).loc b))

/-- The left operand's array as the region finds it. -/
abbrev lhsArr (c : Dev nD) : FVec Ideal S100000x128 .f32 := V c main_v14
/-- The right operand's array as the region finds it. -/
abbrev rhsArr (c : Dev nD) : FVec Ideal S128x64 .f32 := V c main_arg5

theorem zero_offsets : (![0, 0] : Fin 2 → Nat) = fun _ => 0 := funext fun a => by fin_cases a <;> rfl

/-- The body's stored value is the plain product of its two loaded blocks. -/
theorem body_product (x : Vec Ideal S2000x128 .f32) (w : Vec Ideal S128x64 .f32) : k1_pay1 x w = matProd x w := by
  unfold k1_pay1
  rw [shapeCast_self]
  exact matmul_narrowed_eq dot_S2000x128_S128x64_S2000x64_1_0_0_1_n_n rfl rfl rfl rfl rfl rfl none _ x w

/-- The printed index maps over the grid: the left operand's and the output's blocks are row-block t, column-block 0;
    the right operand's block is always the whole array. -/
theorem block_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the operand arrays as the region finds them. -/
theorem written_back (c : Dev nD) (t : Fin cfg1.N) :
    (dat1 V c).flushed 2 t = ((cfg1.win 2).blk t).view.read (Elt Ideal) (matProd (lhsArr V c) (rhsArr V c)) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S128x64) zero_offsets]
  rw [body_product]
  obtain ⟨e0, e1, e2, e3, e4, e5⟩ := block_maps t
  funext j
  show (∑ k : Fin 128, lhsArr V c (((cfg1.win 0).blk t).view.emb (ix2 (j 0) k)) * rhsArr V c (((cfg1.win 1).blk t).view.emb (ix2 k (j 1))))
    = ∑ k : Fin 128, lhsArr V c (ix2 ((((cfg1.win 2).blk t).view.emb j) 0) k) * rhsArr V c (ix2 k ((((cfg1.win 2).blk t).view.emb j) 1))
  refine Finset.sum_congr rfl fun k _ => ?_
  have hx : ((cfg1.win 0).blk t).view.emb (ix2 (j 0) k) = ix2 ((((cfg1.win 2).blk t).view.emb j) 0) k := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * k.val = k.val; omega
  have hw : ((cfg1.win 1).blk t).view.emb (ix2 k (j 1)) = ix2 k ((((cfg1.win 2).blk t).view.emb j) 1) := by
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  rw [hx, hw]
  rfl

/-- An index of the output array is in point t's block iff each coordinate is in the block's range on its axis. -/
theorem mem_block (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v15).slice (win1_2.rect t)).set ↔ _
  rw [View.set_slice_whole, Rect.mem_set_unit]
  exact Iff.rfl

/-- Every index of the output array is in the block of the point its row falls in. -/
theorem covered (i : S100000x64.Idx) :
    ∃ t : Fin cfg1.N, (cfg1.win 2).flush t = true ∧ i ∈ ((cfg1.win 2).blk t).view.set := by
  have hi0 : (i 0).val < 100000 := idx2_lt0 i
  have hi1 : (i 1).val < 64 := idx2_lt1 i
  have hN : (i 0).val / 2000 < cfg1.N := lt_of_lt_of_eq (by omega) N_1.symm
  refine ⟨⟨(i 0).val / 2000, hN⟩, flush1_2 _, ?_⟩
  obtain ⟨e0, e1, e2, e3, e4, e5⟩ := block_maps ⟨(i 0).val / 2000, hN⟩
  rw [mem_block]
  intro a
  match a with
  | ⟨0, _⟩ => show win1_2.index ⟨(i 0).val / 2000, hN⟩ (0 : Fin 2) * 2000 ≤ (i 0).val ∧ (i 0).val < win1_2.index ⟨(i 0).val / 2000, hN⟩ (0 : Fin 2) * 2000 + 2000; simp only [e4]; omega
  | ⟨1, _⟩ => show win1_2.index ⟨(i 0).val / 2000, hN⟩ (1 : Fin 2) * 64 ≤ (i 1).val ∧ (i 1).val < win1_2.index ⟨(i 0).val / 2000, hN⟩ (1 : Fin 2) * 64 + 64; simp only [e5]; omega

/-- The output array after the region: the plain product of the operand arrays as the region found them. -/
theorem output_array (c : Dev nD) : (dat1 V c).arrAt 2 cfg1.N = matProd (lhsArr V c) (rhsArr V c) :=
  (dat1 V c).arrAt_eq_of_cover 2 _ (fun t _ => written_back V c t) covered

end Cert.KernelIdeal.Layer2

end
-- ==== Proof.LibTypedRef.lean ====
/-
  Typed references to host buffers: contents moved to a reference's own buffer type and back are unchanged.
-/
import Idealize.ShloMosaic.Lib.StableHlo

noncomputable section

namespace Cert.LibTypedRef

open Idealize.ShloMosaic

/-- Contents at a value's type, moved to the typed reference's buffer type and back, are the contents: the two moves
    are transports along one equation and its inverse. -/
theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

end Cert.LibTypedRef

end
-- ==== Proof.LibRefCast.lean ====
/-
  Typed references to host buffers, at the buffer's own type: moving contents to the buffer's type, or back, changes
  nothing. (A typed reference carries an equation between its buffer's type and the value's type, and moves contents
  by transport along it; when the value's type IS the buffer's type the transport is along a reflexive equation.)
-/
import Idealize.ShloMosaic.Lib.StableHlo

noncomputable section

namespace Cert.LibRefCast

open Idealize.ShloMosaic

/-- Contents moved to the buffer's type through a typed reference at that very type are unchanged. -/
theorem toBuf_self {sig : RefSig} {Val : EltTy → Type} (r : Ref sig .tc) (h1 : r.ty = r.ty) (h2 : r.space ≠ .host)
    (h3 : r.isScoped = false) (v : r.ty.Contents Val) :
    StableHlo.TRef.toBuf (⟨r, h1, h2, h3⟩ : StableHlo.TRef sig r.ty) v = v := rfl

/-- Contents moved back from the buffer's type through a typed reference at that very type are unchanged. -/
theorem ofBuf_self {sig : RefSig} {Val : EltTy → Type} (r : Ref sig .tc) (h1 : r.ty = r.ty) (h2 : r.space ≠ .host)
    (h3 : r.isScoped = false) (v : r.ty.Contents Val) :
    StableHlo.TRef.ofBuf (⟨r, h1, h2, h3⟩ : StableHlo.TRef sig r.ty) v = v := rfl

end Cert.LibRefCast

end
-- ==== Proof.HostStages.lean ====
/-
  The host operations of @main between and after the two products, each stretch as ONE function of the arrays it reads.

  After the first product s (100000 × 128): every edge e gathers row col(e) of s (a negative column index has 100000
  added first), scales it by val(e), and the scaled rows are summed into row row(e) of a zero array; then the maximum
  with zero is taken entry by entry. After the second product (100000 × 64) the same aggregation is applied, without
  the maximum. Neither stretch writes an argument array.
-/
import proofs.«104030_j47880295416003_1_alg».proof.Proof.Gen.KernelIdeal.Launch
import Idealize.ShloMosaic.Lib.StableHlo.Run
import Idealize.ShloMosaic.PureOps.Ideal
import proofs.«104030_j47880295416003_1_alg».proof.Proof.LibTypedRef
import proofs.«104030_j47880295416003_1_alg».proof.Proof.LibRefCast

set_option maxRecDepth 16384

noncomputable section

namespace Cert.KernelIdeal.HostStages

open Cert.KernelIdeal Cert.KernelIdeal.Gen
open Idealize.ShloMosaic Idealize.ShloMosaic.TcCoe Idealize.SL.Sem Idealize.ShloMosaic.StableHlo

/-- Layer 1 after its product: the aggregation over the edges of the product's rows, then the maximum with zero. -/
def layer1Tail (rows cols : Vec Ideal S1600000 .i32) (vals : FVec Ideal S1600000 .f32)
    (s : FVec Ideal S100000x128 .f32) : FVec Ideal S100000x128 .f32 :=
  maximumf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 rows) (mulf (broadcastInDim S1600000x128 ![0, 1] bcast_S1600000x1_S1600000x128_0_1 (broadcastInDim S1600000x1 ![0] bcast_S1600000_S1600000x1_0 vals)) (Host.gather gather_S100000x128_S1600000x1_S1600000x128_1_0_n_n_0_1_1128 s (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 100000#32))) cols))))) (broadcastInDim S100000x128 ![] bcast_S_S100000x128 (constant S_ .f32 0x00000000#32))

/-- Layer 2 after its product: the aggregation over the edges of the product's rows. -/
def layer2Tail (rows cols : Vec Ideal S1600000 .i32) (vals : FVec Ideal S1600000 .f32)
    (s : FVec Ideal S100000x64 .f32) : FVec Ideal S100000x64 .f32 :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 rows) (mulf (broadcastInDim S1600000x64 ![0, 1] bcast_S1600000x1_S1600000x64_0_1 (broadcastInDim S1600000x1 ![0] bcast_S1600000_S1600000x1_0 vals)) (Host.gather gather_S100000x64_S1600000x1_S1600000x64_1_0_n_n_0_1_164 s (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 100000#32))) cols))))

-- the buffers' contents when a stretch is entered
variable (X : Valuation τ sig (Elt Ideal))

/-- The operations after the first product up to the maximum: the aggregation over the edges of the product's rows. -/
def aggregate1 (rows cols : Vec Ideal S1600000 .i32) (vals : FVec Ideal S1600000 .f32) (s : FVec Ideal S100000x128 .f32) :
    FVec Ideal S100000x128 .f32 :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 rows) (mulf (broadcastInDim S1600000x128 ![0, 1] bcast_S1600000x1_S1600000x128_0_1 (broadcastInDim S1600000x1 ![0] bcast_S1600000_S1600000x1_0 vals)) (Host.gather gather_S100000x128_S1600000x1_S1600000x128_1_0_n_n_0_1_1128 s (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 100000#32))) cols))))

/-- Layer 1's tail is the maximum with zero of the aggregation. -/
theorem layer1Tail_eq (rows cols : Vec Ideal S1600000 .i32) (vals : FVec Ideal S1600000 .f32) (s : FVec Ideal S100000x128 .f32) :
    layer1Tail rows cols vals s
      = maximumf (aggregate1 rows cols vals s) (broadcastInDim S100000x128 ![] bcast_S_S100000x128 (constant (F := Ideal) S_ .f32 0x00000000#32)) := rfl

/-- The first host stretch leaves the aggregation of the first product in the buffer the called function reads. -/
theorem aggregate_stage :
    StableHlo.after (hostOps1 (F := Ideal)) X (Proc.devRef .tc main_v13)
      = aggregate1 (X (Proc.devRef .tc main_arg1)) (X (Proc.devRef .tc main_arg2)) (X (Proc.devRef .tc main_arg3)) (X (Proc.devRef .tc main_v0)) := by
  unfold aggregate1
  after_results_simp

/-- The called function leaves, in its result buffer, the maximum with zero of what it found in its argument's buffer. -/
theorem maximum_stage (Y : Valuation τ sig (Elt Ideal)) :
    StableHlo.after (hostOps1_1 (F := Ideal)) Y (Proc.devRef .tc main_v14)
      = maximumf (Y (Proc.devRef .tc main_v13)) (broadcastInDim S100000x128 ![] bcast_S_S100000x128 (constant (F := Ideal) S_ .f32 0x00000000#32)) := by
  after_results_simp
  simp only [Cert.LibTypedRef.ofBuf_toBuf]
  refine (Cert.LibRefCast.toBuf_self main_v14 _ _ _ _).trans ?_
  exact congrArg (fun z : FVec Ideal S100000x128 .f32 => maximumf z (broadcastInDim S100000x128 ![] bcast_S_S100000x128 (constant (F := Ideal) S_ .f32 0x00000000#32)))
    (Cert.LibRefCast.ofBuf_self main_v13 _ _ _ (Y (Proc.devRef .tc main_v13)))

/-- The stretch between the two products leaves, in the buffer the second product reads, layer 1's tail of the first
    product and the three edge arrays. -/
theorem between_products :
    StableHlo.after (hostOps1_1 (F := Ideal)) (StableHlo.after (hostOps1 (F := Ideal)) X) (Proc.devRef .tc main_v14)
      = layer1Tail (X (Proc.devRef .tc main_arg1)) (X (Proc.devRef .tc main_arg2)) (X (Proc.devRef .tc main_arg3)) (X (Proc.devRef .tc main_v0)) := by
  rw [layer1Tail_eq, maximum_stage, aggregate_stage]

theorem between_keeps_arg1 :
    StableHlo.after (hostOps1_1 (F := Ideal)) (StableHlo.after (hostOps1 (F := Ideal)) X) (Proc.devRef .tc main_arg1) = X (Proc.devRef .tc main_arg1) := by
  after_results_simp
theorem between_keeps_arg2 :
    StableHlo.after (hostOps1_1 (F := Ideal)) (StableHlo.after (hostOps1 (F := Ideal)) X) (Proc.devRef .tc main_arg2) = X (Proc.devRef .tc main_arg2) := by
  after_results_simp
theorem between_keeps_arg3 :
    StableHlo.after (hostOps1_1 (F := Ideal)) (StableHlo.after (hostOps1 (F := Ideal)) X) (Proc.devRef .tc main_arg3) = X (Proc.devRef .tc main_arg3) := by
  after_results_simp
theorem between_keeps_arg5 :
    StableHlo.after (hostOps1_1 (F := Ideal)) (StableHlo.after (hostOps1 (F := Ideal)) X) (Proc.devRef .tc main_arg5) = X (Proc.devRef .tc main_arg5) := by
  after_results_simp

/-- The stretch after the second product leaves, in the result buffer, layer 2's tail of the second product and the
    three edge arrays. -/
theorem after_products :
    StableHlo.after (hostOps2 (F := Ideal)) X (Proc.devRef .tc main_v28)
      = layer2Tail (X (Proc.devRef .tc main_arg1)) (X (Proc.devRef .tc main_arg2)) (X (Proc.devRef .tc main_arg3)) (X (Proc.devRef .tc main_v15)) := by
  unfold layer2Tail
  after_results_simp

end Cert.KernelIdeal.HostStages

end
-- ==== Proof.KernelValue.lean ====
/-
  The idealized kernel's result as one function of the argument arrays.

  Through @main: the first pallas_call leaves x · w₁ (the plain product); the host stretch after it aggregates that
  product over the edges and takes the maximum with zero; the second pallas_call leaves the product of that array with
  w₂; the last host stretch aggregates it over the edges. No stretch and no call writes an argument array, so every
  stage reads the edge arrays and the weights as launched.
-/
import proofs.«104030_j47880295416003_1_alg».proof.Proof.ResultRun
import proofs.«104030_j47880295416003_1_alg».proof.Proof.Layer1Product
import proofs.«104030_j47880295416003_1_alg».proof.Proof.Layer2Product
import proofs.«104030_j47880295416003_1_alg».proof.Proof.HostStages

set_option maxRecDepth 16384

noncomputable section

namespace Cert.KernelIdeal.KernelValue

open Cert.KernelIdeal Cert.KernelIdeal.Gen Cert.KernelIdeal.HostStages Cert.MatProd
open Idealize.ShloMosaic Idealize.ShloMosaic.TcCoe Idealize.SL.Sem

variable (m : (ℓ : Loc nD τ sig) → Buf (Elt Ideal) ℓ) (ρ : Dev nD → PrngReg)

/-- The two-layer network's output as a function of the six argument arrays: aggregate(relu-aggregate(x · w₁) · w₂). -/
def network (x : FVec Ideal S100000x512 .f32) (rows cols : Vec Ideal S1600000 .i32) (vals : FVec Ideal S1600000 .f32)
    (w1 : FVec Ideal S512x128 .f32) (w2 : FVec Ideal S128x64 .f32) : FVec Ideal S100000x64 .f32 :=
  layer2Tail rows cols vals (matProd (R := 100000) (K := 128) (C := 64)
    (layer1Tail rows cols vals (matProd (R := 100000) (K := 512) (C := 128) x w1)) w2)

/-- After the first pallas_call its output array is x · w₁. -/
theorem first_product (c : Dev nD) :
    W1 m ρ c (Proc.devRef .tc main_v0) = matProd (R := 100000) (K := 512) (C := 128) (m ((c : Thread nD τ).loc main_arg0)) (m ((c : Thread nD τ).loc main_arg4)) :=
  (W1_arr m ρ c 2).trans (Layer1.output_array (V0 m ρ) c)

/-- The first pallas_call leaves the edge arrays as launched. -/
theorem first_keeps_arg1 (c : Dev nD) : W1 m ρ c (Proc.devRef .tc main_arg1) = m ((c : Thread nD τ).loc main_arg1) :=
  W1_of_ne m ρ c main_arg1 (by decide)
theorem first_keeps_arg2 (c : Dev nD) : W1 m ρ c (Proc.devRef .tc main_arg2) = m ((c : Thread nD τ).loc main_arg2) :=
  W1_of_ne m ρ c main_arg2 (by decide)
theorem first_keeps_arg3 (c : Dev nD) : W1 m ρ c (Proc.devRef .tc main_arg3) = m ((c : Thread nD τ).loc main_arg3) :=
  W1_of_ne m ρ c main_arg3 (by decide)
theorem first_keeps_arg5 (c : Dev nD) : W1 m ρ c (Proc.devRef .tc main_arg5) = m ((c : Thread nD τ).loc main_arg5) :=
  W1_of_ne m ρ c main_arg5 (by decide)

/-- When the second pallas_call is entered its left operand holds layer 1's tail of x · w₁. -/
theorem hidden (c : Dev nD) :
    W3 m ρ c (Proc.devRef .tc main_v14) = layer1Tail (m ((c : Thread nD τ).loc main_arg1)) (m ((c : Thread nD τ).loc main_arg2)) (m ((c : Thread nD τ).loc main_arg3))
      (matProd (R := 100000) (K := 512) (C := 128) (m ((c : Thread nD τ).loc main_arg0)) (m ((c : Thread nD τ).loc main_arg4))) := by
  have h := between_products (W1 m ρ c)
  rw [first_product, first_keeps_arg1, first_keeps_arg2, first_keeps_arg3] at h
  exact h

theorem second_entry_arg1 (c : Dev nD) : W3 m ρ c (Proc.devRef .tc main_arg1) = m ((c : Thread nD τ).loc main_arg1) :=
  (between_keeps_arg1 (W1 m ρ c)).trans (first_keeps_arg1 m ρ c)
theorem second_entry_arg2 (c : Dev nD) : W3 m ρ c (Proc.devRef .tc main_arg2) = m ((c : Thread nD τ).loc main_arg2) :=
  (between_keeps_arg2 (W1 m ρ c)).trans (first_keeps_arg2 m ρ c)
theorem second_entry_arg3 (c : Dev nD) : W3 m ρ c (Proc.devRef .tc main_arg3) = m ((c : Thread nD τ).loc main_arg3) :=
  (between_keeps_arg3 (W1 m ρ c)).trans (first_keeps_arg3 m ρ c)
theorem second_entry_arg5 (c : Dev nD) : W3 m ρ c (Proc.devRef .tc main_arg5) = m ((c : Thread nD τ).loc main_arg5) :=
  (between_keeps_arg5 (W1 m ρ c)).trans (first_keeps_arg5 m ρ c)

/-- After the second pallas_call its output array is the product of its two operands as it found them. -/
theorem second_product (c : Dev nD) :
    W4 m ρ c (Proc.devRef .tc main_v15) = matProd (R := 100000) (K := 128) (C := 64) (W3 m ρ c (Proc.devRef .tc main_v14)) (W3 m ρ c (Proc.devRef .tc main_arg5)) :=
  (W4_arr m ρ c 2).trans (Layer2.output_array (V3 m ρ) c)

theorem second_keeps_arg1 (c : Dev nD) : W4 m ρ c (Proc.devRef .tc main_arg1) = m ((c : Thread nD τ).loc main_arg1) :=
  (W4_of_ne m ρ c main_arg1 (by decide)).trans (second_entry_arg1 m ρ c)
theorem second_keeps_arg2 (c : Dev nD) : W4 m ρ c (Proc.devRef .tc main_arg2) = m ((c : Thread nD τ).loc main_arg2) :=
  (W4_of_ne m ρ c main_arg2 (by decide)).trans (second_entry_arg2 m ρ c)
theorem second_keeps_arg3 (c : Dev nD) : W4 m ρ c (Proc.devRef .tc main_arg3) = m ((c : Thread nD τ).loc main_arg3) :=
  (W4_of_ne m ρ c main_arg3 (by decide)).trans (second_entry_arg3 m ρ c)

/-- The result buffer at the last boundary holds the network's output of the arguments as launched. -/
theorem result_value (c : Dev nD) :
    W5 m ρ c (Proc.devRef .tc main_v28) = network (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  have h := after_products (W4 m ρ c)
  rw [second_product, hidden, second_entry_arg5, second_keeps_arg1, second_keeps_arg2, second_keeps_arg3] at h
  exact h

/-- The idealized kernel's run with its result named: the network's output of the arguments, the arguments unchanged. -/
theorem run : θ_run defs (onTc (τ := τ) (main (F := Ideal))) ⟨m, fun _ => 0, ρ⟩ (fun r => ∀ c : Dev nD,
      r.2.mem ((c.tc : Thread nD τ).loc main_v28) = network (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩) (ResultRun.run_result m ρ)

end Cert.KernelIdeal.KernelValue

end
-- ==== Proof.ReferenceValue.lean ====
/-
  The idealized reference's result as the same function of the argument arrays.

  The reference's run ends with its result at the composed term of its operations. Its two host products are the plain
  product (the same sum over the shared axis as the kernel's blocks), and the rest of the term is, operation for
  operation, the kernel program's two host stretches: the aggregation over the edges with the maximum with zero after
  the first product, the aggregation after the second.
-/
import proofs.«104030_j47880295416003_1_alg».proof.Proof.Gen.ReferenceIdeal.Run
import proofs.«104030_j47880295416003_1_alg».proof.Proof.KernelValue

set_option maxRecDepth 16384

noncomputable section

namespace Cert.ReferenceIdeal.RefValue

open Cert.ReferenceIdeal Cert.ReferenceIdeal.Gen Cert.MatProd
open Idealize.ShloMosaic Idealize.ShloMosaic.TcCoe Idealize.SL.Sem

/-- The reference's composed term is the network's output: its two host products are plain products, and around them
    it applies the kernel program's own host stretches. -/
theorem term_eq (x : FVec Ideal S100000x512 .f32) (rows cols : Vec Ideal S1600000 .i32) (vals : FVec Ideal S1600000 .f32)
    (w1 : FVec Ideal S512x128 .f32) (w2 : FVec Ideal S128x64 .f32) :
    Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 rows) (mulf (broadcastInDim S1600000x64 ![0, 1] bcast_S1600000x1_S1600000x64_0_1 (broadcastInDim S1600000x1 ![0] bcast_S1600000_S1600000x1_0 vals)) (Host.gather gather_S100000x64_S1600000x1_S1600000x64_1_0_n_n_0_1_164 (Host.dotGeneral dot_S100000x128_S128x64_S100000x64_1_0_0_1_n_n none (maximumf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 rows) (mulf (broadcastInDim S1600000x128 ![0, 1] bcast_S1600000x1_S1600000x128_0_1 (broadcastInDim S1600000x1 ![0] bcast_S1600000_S1600000x1_0 vals)) (Host.gather gather_S100000x128_S1600000x1_S1600000x128_1_0_n_n_0_1_1128 (Host.dotGeneral dot_S100000x512_S512x128_S100000x128_1_0_0_1_n_n none x w1) (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 100000#32))) cols))))) (broadcastInDim S100000x128 ![] bcast_S_S100000x128 (constant S_ .f32 0x00000000#32))) w2) (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 100000#32))) cols))))
      = Cert.KernelIdeal.KernelValue.network x rows cols vals w1 w2 := by
  rw [hostDot_eq dot_S100000x512_S512x128_S100000x128_1_0_0_1_n_n rfl rfl rfl rfl rfl rfl,
    hostDot_eq dot_S100000x128_S128x64_S100000x64_1_0_0_1_n_n rfl rfl rfl rfl rfl rfl]
  rfl

variable (m : (ℓ : Loc nD τ sig) → Buf (Elt Ideal) ℓ) (ρ : Dev nD → PrngReg)

/-- The reference's run with its result named: the network's output of the arguments, the arguments unchanged. -/
theorem run : θ_run defs (onTc (τ := τ) (main (F := Ideal))) ⟨m, fun _ => 0, ρ⟩ (fun r => ∀ c : Dev nD,
      r.2.mem ((c.tc : Thread nD τ).loc main_v28) = Cert.KernelIdeal.KernelValue.network (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (term_eq _ _ _ _ _ _), (h c).2⟩)
    (Cert.ReferenceIdeal.Value.run (F := Ideal) m ρ)

end Cert.ReferenceIdeal.RefValue

end
-- ==== Proof.lean ====
/-
  A two-layer graph convolution, kernel against reference, over the extended reals.

  Both programs compute  aggregate( relu( aggregate(X · W₁) ) · W₂ ),  where "aggregate" gathers, for every edge, the row
  of its column node, scales it by the edge's value and sums it into the row of its row node. The reference takes the
  two products X · W₁ and H · W₂ on the host; the kernel takes each in a pallas_call over 50 blocks of 2000 rows, its
  operands narrowed to a shorter float format and accumulated from zero. On extended reals narrowing is the identity
  and a product into a zero accumulator is the plain product, entry (r, c) = ∑ₖ x(r, k) · w(k, c); block t's entry (p, c)
  is the whole product's entry (2000·t + p, c), and the 50 blocks cover the 100000 rows. So each pallas_call leaves the very
  array the reference's host product computes, and everything else in the two programs is the same operations in the
  same order on the same arrays. No law that needs finite inputs is used: the two sides are the same sums.

  Modules: MatProd (the plain product; the body's product and the host's product are it), Layer1Product / Layer2Product
  (what each pallas_call leaves in its output array), HostStages (each host stretch as one function of what it reads),
  ResultRun (the kernel program's run with its result buffer named), KernelValue and ReferenceValue (each program's
  result as the one function `network` of the six arguments).
-/
import proofs.«104030_j47880295416003_1_alg».proof.Defs
import proofs.«104030_j47880295416003_1_alg».proof.Proof.Gen.Kernel
import proofs.«104030_j47880295416003_1_alg».proof.Proof.Gen.Kernel.Skeleton
import proofs.«104030_j47880295416003_1_alg».proof.Proof.Gen.Kernel.Launch
import proofs.«104030_j47880295416003_1_alg».proof.Proof.Gen.Kernel.Points
import proofs.«104030_j47880295416003_1_alg».proof.Proof.Gen.Kernel.Frame
import proofs.«104030_j47880295416003_1_alg».proof.Proof.Gen.KernelIdeal
import proofs.«104030_j47880295416003_1_alg».proof.Proof.Gen.KernelIdeal.Skeleton
import proofs.«104030_j47880295416003_1_alg».proof.Proof.Gen.KernelIdeal.Launch
import proofs.«104030_j47880295416003_1_alg».proof.Proof.Gen.KernelIdeal.Points
import proofs.«104030_j47880295416003_1_alg».proof.Proof.Gen.KernelIdeal.Frame
import proofs.«104030_j47880295416003_1_alg».proof.Proof.Gen.ReferenceIdeal
import proofs.«104030_j47880295416003_1_alg».proof.Proof.Gen.Pre_finite_inputs
import proofs.«104030_j47880295416003_1_alg».proof.Proof.Gen.ReferenceIdeal.Run
import proofs.«104030_j47880295416003_1_alg».proof.Proof.KernelValue
import proofs.«104030_j47880295416003_1_alg».proof.Proof.ReferenceValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the network's output of those arguments in
    their result buffers. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
